-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x500000 32) (main_arg2 : FVec F S500000 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S5000x128 : Shape := ⟨2, ![5000, 128]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S1x1 : Shape := ⟨2, ![1, 1]⟩
abbrev S5000x1 : Shape := ⟨2, ![5000, 1]⟩

abbrev nBuf : Space → Nat
  | .hbm => 135
  | .vmem => 16
  | .smem => 0
  | _ => 0

abbrev hbmTy0_0 (i : Nat) : BufTy := match i % 128 with
  | 0 => ⟨S50000x128, .f32⟩
  | 1 => ⟨S2x500000, .i32⟩
  | 2 => ⟨S500000, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x500000, .i32⟩
  | 10 => ⟨S500000, .i32⟩
  | 11 => ⟨S1x500000, .i32⟩
  | 12 => ⟨S500000, .i32⟩
  | 13 => ⟨S50000x128, .f32⟩
  | 14 => ⟨S_, .f32⟩
  | 15 => ⟨S50000, .f32⟩
  | 16 => ⟨S500000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S500000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000, .f32⟩
  | 48 => ⟨S500000, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S500000x1, .f32⟩
  | 59 => ⟨S500000x128, .f32⟩
  | 60 => ⟨S500000x128, .f32⟩
  | 61 => ⟨S_, .f32⟩
  | 62 => ⟨S50000x128, .f32⟩
  | 63 => ⟨S500000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S500000x1, .i32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000, .f32⟩
  | 98 => ⟨S500000, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000, .f32⟩
  | 108 => ⟨S500000, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x128, .f32⟩
  | 118 => ⟨S500000x1, .f32⟩
  | 119 => ⟨S500000x128, .f32⟩
  | 120 => ⟨S500000x128, .f32⟩
  | 121 => ⟨S_, .f32⟩
  | 122 => ⟨S50000x128, .f32⟩
  | 123 => ⟨S500000x1, .i32⟩
  | 124 => ⟨S50000x128, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S1x1, .f32⟩
  | 6 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x128_S5000x128_1_0_0_1_n_n_wf : DotDims.WF S5000x128 S128x128 S5000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v97) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v98) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v99) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x500000, .i32⟩
  | 2 => ⟨S500000, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x500000, .i32⟩
  | 10 => ⟨S500000, .i32⟩
  | 11 => ⟨S1x500000, .i32⟩
  | 12 => ⟨S500000, .i32⟩
  | 13 => ⟨S50000x128, .f32⟩
  | 14 => ⟨S_, .f32⟩
  | 15 => ⟨S50000, .f32⟩
  | 16 => ⟨S500000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S500000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000, .f32⟩
  | 48 => ⟨S500000, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S500000x1, .f32⟩
  | 59 => ⟨S500000x128, .f32⟩
  | 60 => ⟨S500000x128, .f32⟩
  | 61 => ⟨S_, .f32⟩
  | 62 => ⟨S50000x128, .f32⟩
  | 63 => ⟨S500000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S500000x1, .i32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000, .f32⟩
  | 98 => ⟨S500000, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000, .f32⟩
  | 108 => ⟨S500000, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x128, .f32⟩
  | 118 => ⟨S500000x1, .f32⟩
  | 119 => ⟨S500000x128, .f32⟩
  | 120 => ⟨S500000x128, .f32⟩
  | 121 => ⟨S_, .f32⟩
  | 122 => ⟨S50000x128, .f32⟩
  | 123 => ⟨S500000x1, .i32⟩
  | 124 => ⟨S50000x128, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S50000x1, .f32⟩
  | 6 => ⟨S1x1, .f32⟩
  | 7 => ⟨S50000x1, .f32⟩
  | 8 => ⟨S50000x1, .f32⟩
  | 9 => ⟨S50000x1, .f32⟩
  | 10 => ⟨S50000x1, .f32⟩
  | 11 => ⟨S_, .f32⟩
  | 12 => ⟨S50000x1, .f32⟩
  | 13 => ⟨S50000x1, .f32⟩
  | 14 => ⟨S_, .f32⟩
  | 15 => ⟨S50000x1, .f32⟩
  | 16 => ⟨S50000x1, .f32⟩
  | 17 => ⟨S_, .f32⟩
  | 18 => ⟨S50000x1, .f32⟩
  | 19 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_20 : Ref sig .tc := ⟨.hbm, 139, rfl⟩
abbrev main_v104 : Ref sig .tc := ⟨.hbm, 140, rfl⟩
abbrev main_v105 : Ref sig .tc := ⟨.hbm, 141, rfl⟩
abbrev main_cst_21 : Ref sig .tc := ⟨.hbm, 142, rfl⟩
abbrev main_v106 : Ref sig .tc := ⟨.hbm, 143, rfl⟩
abbrev main_v107 : Ref sig .tc := ⟨.hbm, 144, rfl⟩
abbrev main_cst_22 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.DotKA.lean ====
/-
  The matrix unit's product of a 5000-row block with a 128 by 128 matrix, accumulated into zero, read at an element at `Ideal`: the plain sum over the 128 contracted positions of a row of the left factor
  times a column of the right one (the one contracted axis re-indexed by its coordinate).
-/
import proofs.«139643_j72619307041204_1_alg».proof.KernelIdeal
import proofs.«139643_j72619307041204_1_alg».proof.Proof.Gen.KernelIdeal
import Idealize.ShloMosaic.Lib.ValueIdx
import Idealize.ShloMosaic.PureOps.Ideal.Laws

noncomputable section

open scoped BigOperators

namespace Cert.Gcn.KA

open Idealize.ShloMosaic Cert.KernelIdeal Cert.KernelIdeal.Gen

theorem lhs_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- Row `j 0` of the left factor at position `k`. -/
abbrev row (j : S5000x128.Idx) (k : Fin 128) : S5000x128.Idx := fun a => match a with
  | ⟨0, _⟩ => ⟨(j 0).val, (j 0).isLt⟩
  | ⟨1, _⟩ => ⟨k.val, k.isLt⟩
/-- Column `j 1` of the right factor at position `k`. -/
abbrev col (j : S5000x128.Idx) (k : Fin 128) : S128x128.Idx := fun a => match a with
  | ⟨0, _⟩ => ⟨k.val, k.isLt⟩
  | ⟨1, _⟩ => ⟨(j 1).val, (j 1).isLt⟩
/-- An element of the product is the sum over the 128 contracted positions of row times column. -/
theorem dot_apply (x : FVec Ideal S5000x128 .bf16) (w : FVec Ideal S128x128 .bf16) (j : S5000x128.Idx) :
    matmul dot_S5000x128_S128x128_S5000x128_1_0_0_1_n_n none x w (constant S5000x128 .f32 0x00000000#32) j = ∑ k : Fin 128, x (row j k) * w (col j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = row j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = col j k := funext fun a => Fin.ext (by
    match a with
    | ⟨0, _⟩ => exact (rhs_0 _ _).trans hk
    | ⟨1, _⟩ => exact rhs_1 _ _)
  rw [el, er]

end Cert.Gcn.KA

end
-- ==== Proof.DotRA.lean ====
/-
  The host's dense product of the 50000 node rows with a 128 by 128 matrix, read at an element at `Ideal`: the plain sum over the 128 contracted positions of a row of the left factor
  times a column of the right one (the one contracted axis re-indexed by its coordinate).
-/
import proofs.«139643_j72619307041204_1_alg».proof.ReferenceIdeal
import proofs.«139643_j72619307041204_1_alg».proof.Proof.Gen.ReferenceIdeal
import Idealize.ShloMosaic.Lib.ValueIdx
import Idealize.ShloMosaic.PureOps.Ideal.Laws

noncomputable section

open scoped BigOperators

namespace Cert.Gcn.RA

open Idealize.ShloMosaic Cert.ReferenceIdeal Cert.ReferenceIdeal.Gen

theorem lhs_0 (j : S50000x128.Idx) (q : dot_S50000x128_S128x128_S50000x128_1_0_0_1_n_n.contr.Idx) : (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (j : S50000x128.Idx) (q : dot_S50000x128_S128x128_S50000x128_1_0_0_1_n_n.contr.Idx) : (dot_S50000x128_S128x128_S50000x128_1_0_0_1_n_n.lhsIdx j q 1).val = (q ⟨0, by decide⟩).val :=
  dot_S50000x128_S128x128_S50000x128_1_0_0_1_n_n.lhsIdx_val_of_single rfl j q
theorem rhs_0 (j : S50000x128.Idx) (q : dot_S50000x128_S128x128_S50000x128_1_0_0_1_n_n.contr.Idx) : (dot_S50000x128_S128x128_S50000x128_1_0_0_1_n_n.rhsIdx j q 0).val = (q ⟨0, by decide⟩).val :=
  dot_S50000x128_S128x128_S50000x128_1_0_0_1_n_n.rhsIdx_val_of_single rfl j q
theorem rhs_1 (j : S50000x128.Idx) (q : dot_S50000x128_S128x128_S50000x128_1_0_0_1_n_n.contr.Idx) : (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
/-- Row `j 0` of the left factor at position `k`. -/
abbrev row (j : S50000x128.Idx) (k : Fin 128) : S50000x128.Idx := fun a => match a with
  | ⟨0, _⟩ => ⟨(j 0).val, (j 0).isLt⟩
  | ⟨1, _⟩ => ⟨k.val, k.isLt⟩
/-- Column `j 1` of the right factor at position `k`. -/
abbrev col (j : S50000x128.Idx) (k : Fin 128) : S128x128.Idx := fun a => match a with
  | ⟨0, _⟩ => ⟨k.val, k.isLt⟩
  | ⟨1, _⟩ => ⟨(j 1).val, (j 1).isLt⟩
/-- An element of the product is the sum over the 128 contracted positions of row times column. -/
theorem dot_apply (x : FVec Ideal S50000x128 .f32) (w : FVec Ideal S128x128 .f32) (j : S50000x128.Idx) :
    Host.dotGeneral dot_S50000x128_S128x128_S50000x128_1_0_0_1_n_n none x w j = ∑ k : Fin 128, x (row j k) * w (col j k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx j ((ValueIdx.contrEquiv1 dot_S50000x128_S128x128_S50000x128_1_0_0_1_n_n 128 rfl rfl).symm k) = row j k := funext fun a => Fin.ext (by
    match a with
    | ⟨0, _⟩ => exact lhs_0 _ _
    | ⟨1, _⟩ => exact (lhs_1 _ _).trans hk)
  have er : dot_S50000x128_S128x128_S50000x128_1_0_0_1_n_n.rhsIdx j ((ValueIdx.contrEquiv1 dot_S50000x128_S128x128_S50000x128_1_0_0_1_n_n 128 rfl rfl).symm k) = col j k := funext fun a => Fin.ext (by
    match a with
    | ⟨0, _⟩ => exact (rhs_0 _ _).trans hk
    | ⟨1, _⟩ => exact rhs_1 _ _)
  rw [el, er]

end Cert.Gcn.RA

end
-- ==== Proof.Layer.lean ====
/-
  One graph-convolution layer after its dense product, and the network's head, as functions of whole arrays.
  With `src`, `dst` the two rows of the edge list and `ew` the edge weights:
    deg[v]  = 1 + Σ_{e : dst[e] = v} ew[e]                       (the self loop has weight one)
    dinv[v] = deg[v]^(-1/2) where deg[v] > 0, else 0
    layer(xw)[v, :] = Σ_{e : dst[e] = v} dinv[src[e]] · ew[e] · dinv[dst[e]] · xw[src[e], :]
                      + dinv[v]² · xw[v, :] + b
    head(h)[v] = 10 / (1 + exp(-(h[v, :] · wf + bf)))
  A node index below zero counts from the end (`wrapCol`). Both programs apply exactly these host operations, in this
  order, to their dense products, so the certificate never opens a gather or a scatter: it shows the products equal
  and carries the layer as one function.
-/
import proofs.«139643_j72619307041204_1_alg».proof.ReferenceIdeal
import proofs.«139643_j72619307041204_1_alg».proof.Proof.Gen.ReferenceIdeal

noncomputable section

namespace Cert.Gcn

open Idealize.ShloMosaic Cert.ReferenceIdeal Cert.ReferenceIdeal.Gen

variable {F : FTy → Type} [FloatOps F]

/-- The node indices as a column of start indices, a negative index counted from the end (`i + 50000`). -/
def wrapCol (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 50000#32))) idx)

/-- A node's degree: one for its self loop plus the weights of the edges that end at it. -/
def degree (dst : IVec S500000 32) (ew : FVec F S500000 .f32) : FVec F S50000 .f32 :=
  addf (Host.scatterAdd scatter_S50000_S500000x1_S500000_n_0_0_1 (broadcastInDim S50000 ![] bcast_S_S50000 (constant S_ .f32 0x00000000#32))
      (broadcastInDim S500000x1 ![0] bcast_S500000_S500000x1_0 dst) ew)
    (broadcastInDim S50000 ![] bcast_S_S50000 (constant S_ .f32 0x3F800000#32))

/-- `deg^(-1/2)` where the degree is positive, zero elsewhere. -/
def invSqrtDeg (dst : IVec S500000 32) (ew : FVec F S500000 .f32) : FVec F S50000 .f32 :=
  select (cmpf .ogt (degree dst ew) (broadcastInDim S50000 ![] bcast_S_S50000 (constant S_ .f32 0x00000000#32)))
    (Host.rsqrt (degree dst ew)) (broadcastInDim S50000 ![] bcast_S_S50000 (id (constant S_ .f32 0x00000000#32)))

/-- An edge's normalised weight `dinv[src] · ew · dinv[dst]`. -/
def edgeNorm (src dst : IVec S500000 32) (ew : FVec F S500000 .f32) : FVec F S500000 .f32 :=
  mulf (mulf (Host.gather gather_S50000_S500000x1_S500000_n_0_n_n_0_1_1 (invSqrtDeg dst ew) (wrapCol src)) ew)
    (Host.gather gather_S50000_S500000x1_S500000_n_0_n_n_0_1_1 (invSqrtDeg dst ew) (wrapCol dst))

/-- The layer after its dense product `xw`: the neighbours' rows summed with the edges' normalised weights, the
    node's own row with `dinv²`, and the bias. -/
def layer (xw : FVec F S50000x128 .f32) (src dst : IVec S500000 32) (ew : FVec F S500000 .f32) (b : FVec F S128 .f32) :
    FVec F S50000x128 .f32 :=
  addf (addf (Host.scatterAdd scatter_S50000x128_S500000x1_S500000x128_1_0_0_1
        (broadcastInDim S50000x128 ![] bcast_S_S50000x128 (constant S_ .f32 0x00000000#32))
        (broadcastInDim S500000x1 ![0] bcast_S500000_S500000x1_0 dst)
        (mulf (Host.gather gather_S50000x128_S500000x1_S500000x128_1_0_n_n_0_1_1128 xw (wrapCol src))
          (broadcastInDim S500000x128 ![0, 1] bcast_S500000x1_S500000x128_0_1
            (broadcastInDim S500000x1 ![0] bcast_S500000_S500000x1_0 (edgeNorm src dst ew)))))
      (mulf xw (broadcastInDim S50000x128 ![0, 1] bcast_S50000x1_S50000x128_0_1
        (broadcastInDim S50000x1 ![0] bcast_S50000_S50000x1_0 (mulf (invSqrtDeg dst ew) (invSqrtDeg dst ew))))))
    (broadcastInDim S50000x128 ![0, 1] bcast_S1x128_S50000x128_0_1 (broadcastInDim S1x128 ![1] bcast_S128_S1x128_1 b))

/-- Row `k` of the edge list as a flat vector of node indices. -/
def edgeRow0 (ei : IVec S2x500000 32) : IVec S500000 32 :=
  shapeCast _ (extractStridedSlice S1x500000 ![0, 0] ei slices_S2x500000_S1x500000_0_0) shapeCasts_S1x500000_S500000
def edgeRow1 (ei : IVec S2x500000 32) : IVec S500000 32 :=
  shapeCast _ (extractStridedSlice S1x500000 ![1, 0] ei slices_S2x500000_S1x500000_1_0) shapeCasts_S1x500000_S500000

/-- The dense product of the node features with a square weight matrix, on the host. -/
def dense (x : FVec F S50000x128 .f32) (w : FVec F S128x128 .f32) : FVec F S50000x128 .f32 :=
  Host.dotGeneral dot_S50000x128_S128x128_S50000x128_1_0_0_1_n_n none x w

/-- The head's score before the logistic: the last dense product plus its bias. -/
def score (h : FVec F S50000x128 .f32) (wf : FVec F S128x1 .f32) (bf : FVec F S1 .f32) : FVec F S50000x1 .f32 :=
  addf (Host.dotGeneral dot_S50000x128_S128x1_S50000x1_1_0_0_1_n_n none h wf)
    (broadcastInDim S50000x1 ![0, 1] bcast_S1x1_S50000x1_0_1 (broadcastInDim S1x1 ![1] bcast_S1_S1x1_1 bf))

/-- Ten times the logistic of a score, spelt `1 / (1 + exp (-s))` as the host does. -/
def tenLogistic (s : FVec F S50000x1 .f32) : FVec F S50000x1 .f32 :=
  mulf (Host.divf (broadcastInDim S50000x1 ![] bcast_S_S50000x1 (constant S_ .f32 0x3F800000#32))
      (addf (broadcastInDim S50000x1 ![] bcast_S_S50000x1 (constant S_ .f32 0x3F800000#32)) (Host.exp (Host.negf s))))
    (broadcastInDim S50000x1 ![] bcast_S_S50000x1 (constant S_ .f32 0x41200000#32))

/-- The whole network: two layers over their dense products, then the head. -/
def network (x : FVec F S50000x128 .f32) (ei : IVec S2x500000 32) (ew : FVec F S500000 .f32) (w1 : FVec F S128x128 .f32)
    (b1 : FVec F S128 .f32) (w2 : FVec F S128x128 .f32) (b2 : FVec F S128 .f32) (wf : FVec F S128x1 .f32) (bf : FVec F S1 .f32) :
    FVec F S50000x1 .f32 :=
  tenLogistic (score (layer (dense (layer (dense x w1) (edgeRow0 ei) (edgeRow1 ei) ew b1) w2) (edgeRow0 ei) (edgeRow1 ei) ew b2) wf bf)

end Cert.Gcn

end
-- ==== Proof.Region0.lean ====
/-
  The first dense product on the matrix unit (the node features times the first weight matrix). Grid point `t` multiplies node rows `5000 t … 5000 t + 4999` by the whole
  128 by 128 weight matrix and writes the same rows of the result; the ten blocks tile the 50000 rows, so the result
  array ends holding the host's dense product of the two arrays as the region finds them.
-/
import proofs.«139643_j72619307041204_1_alg».proof.Proof.Gen.KernelIdeal.Frame
import proofs.«139643_j72619307041204_1_alg».proof.Proof.DotKA
import proofs.«139643_j72619307041204_1_alg».proof.Proof.DotRA
import proofs.«139643_j72619307041204_1_alg».proof.Proof.Layer
import Idealize.ShloMosaic.Lib.Pipeline.Value

set_option maxRecDepth 16384

noncomputable section

open scoped BigOperators

namespace Cert.Gcn.Region0

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The node features and the weight matrix as the region finds them, at their literal types. -/
abbrev xarr (c : Dev nD) : FVec Ideal S50000x128 .f32 := V c main_arg0
abbrev warr (c : Dev nD) : FVec Ideal S128x128 .f32 := V c main_arg3
/-- A point's blocks of them, at their literal types. -/
abbrev xblk (c : Dev nD) (t : Fin cfg0.N) : Vec Ideal S5000x128 .f32 := iblk0 V c 0 t
abbrev wblk (c : Dev nD) (t : Fin cfg0.N) : Vec Ideal S128x128 .f32 := iblk0 V c 1 t

theorem hz : (![0, 0] : Fin 2 → Nat) = fun _ => 0 := funext fun a => by fin_cases a <;> rfl

/-- The body's one store at an element: row times column over the 128 contracted positions (the two narrowings to
    bf16 are the identity on the extended reals). -/
theorem pay_apply (x0 : Vec Ideal S5000x128 .f32) (x1 : Vec Ideal S128x128 .f32) (j : S5000x128.Idx) :
    k0_pay1 x0 x1 j = ∑ k : Fin 128, x0 (KA.row j k) * x1 (KA.col j k) := by
  unfold k0_pay1
  try simp only [shapeCast_self]
  exact KA.dot_apply (truncf .bf16 x0 bitsLt_bf16_f32) (truncf .bf16 x1 bitsLt_bf16_f32) j

/-- The printed index maps over the grid: the row blocks of the left factor and of the result move together, block
    `t` at point `t`; the weight matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense product of the arrays as the region finds them. -/
theorem flushed_eq (c : Dev nD) (t : Fin cfg0.N) :
    (dat0 V c).flushed 2 t = ((cfg0.win 2).blk t).view.read (Elt Ideal) (Cert.Gcn.dense (F := Ideal) (xarr V c) (warr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (xblk V c t) (wblk V c t) j
      = Cert.Gcn.dense (F := Ideal) (xarr V c) (warr V c) (((cfg0.win 2).blk t).view.emb j)
  refine (pay_apply (xblk V c t) (wblk V c t) j).trans ?_
  unfold Cert.Gcn.dense
  refine Eq.symm ((RA.dot_apply (xarr V c) (warr V c) (((cfg0.win 2).blk t).view.emb j)).trans ?_)
  refine Finset.sum_congr rfl fun k _ => ?_
  show xarr V c (RA.row (((cfg0.win 2).blk t).view.emb j) k) * warr V c (RA.col (((cfg0.win 2).blk t).view.emb j) k)
      = xarr V c (((cfg0.win 0).blk t).view.emb (KA.row j k)) * warr V c (((cfg0.win 1).blk t).view.emb (KA.col j k))
  have h0 : ((cfg0.win 0).blk t).view.emb (KA.row j k) = RA.row (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (KA.col j k) = RA.col (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The ten row blocks tile the array (row `r` is in block `r / 5000`), so it ends holding the dense product. -/
theorem final (c : Dev nD) :
    (dat0 V c).arrAt 2 cfg0.N = Cert.Gcn.dense (F := Ideal) (xarr V c) (warr V c) :=
  (dat0 V c).arrAt_eq_of_cover 2 _ (fun t _ => flushed_eq V c t) fun i => by
    have hi0 : (i 0).val < 50000 := (i 0).isLt
    have hi1 : (i 1).val < 128 := (i 1).isLt
    have hN : cfg0.N = 10 := N_0
    refine ⟨⟨(i 0).val / 5000, by omega⟩, flush0_2 _, ?_⟩
    rw [mem_blk]
    obtain ⟨e0, e1, e2, e3, e4, e5⟩ := idx_facts ⟨(i 0).val / 5000, by omega⟩
    intro a
    match a with
    | ⟨0, _⟩ =>
      show win0_2.index ⟨(i 0).val / 5000, _⟩ (0 : Fin 2) * 5000 ≤ (i 0).val ∧ (i 0).val < win0_2.index ⟨(i 0).val / 5000, _⟩ (0 : Fin 2) * 5000 + 5000
      rw [e4]; show (i 0).val / 5000 * 5000 ≤ (i 0).val ∧ (i 0).val < (i 0).val / 5000 * 5000 + 5000; omega
    | ⟨1, _⟩ =>
      show win0_2.index ⟨(i 0).val / 5000, _⟩ (1 : Fin 2) * 128 ≤ (i 1).val ∧ (i 1).val < win0_2.index ⟨(i 0).val / 5000, _⟩ (1 : Fin 2) * 128 + 128
      rw [e5]; omega

end Cert.Gcn.Region0

end
-- ==== Proof.Region1.lean ====
/-
  The second dense product on the matrix unit (the first layer's output times the second weight matrix). Grid point `t` multiplies node rows `5000 t … 5000 t + 4999` by the whole
  128 by 128 weight matrix and writes the same rows of the result; the ten blocks tile the 50000 rows, so the result
  array ends holding the host's dense product of the two arrays as the region finds them.
-/
import proofs.«139643_j72619307041204_1_alg».proof.Proof.Gen.KernelIdeal.Frame
import proofs.«139643_j72619307041204_1_alg».proof.Proof.DotKA
import proofs.«139643_j72619307041204_1_alg».proof.Proof.DotRA
import proofs.«139643_j72619307041204_1_alg».proof.Proof.Layer
import Idealize.ShloMosaic.Lib.Pipeline.Value

set_option maxRecDepth 16384

noncomputable section

open scoped BigOperators

namespace Cert.Gcn.Region1

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The node features and the weight matrix as the region finds them, at their literal types. -/
abbrev xarr (c : Dev nD) : FVec Ideal S50000x128 .f32 := V c main_v50
abbrev warr (c : Dev nD) : FVec Ideal S128x128 .f32 := V c main_arg5
/-- A point's blocks of them, at their literal types. -/
abbrev xblk (c : Dev nD) (t : Fin cfg1.N) : Vec Ideal S5000x128 .f32 := iblk1 V c 0 t
abbrev wblk (c : Dev nD) (t : Fin cfg1.N) : Vec Ideal S128x128 .f32 := iblk1 V c 1 t

theorem hz : (![0, 0] : Fin 2 → Nat) = fun _ => 0 := funext fun a => by fin_cases a <;> rfl

/-- The body's one store at an element: row times column over the 128 contracted positions (the two narrowings to
    bf16 are the identity on the extended reals). -/
theorem pay_apply (x0 : Vec Ideal S5000x128 .f32) (x1 : Vec Ideal S128x128 .f32) (j : S5000x128.Idx) :
    k1_pay1 x0 x1 j = ∑ k : Fin 128, x0 (KA.row j k) * x1 (KA.col j k) := by
  unfold k1_pay1
  try simp only [shapeCast_self]
  exact KA.dot_apply (truncf .bf16 x0 bitsLt_bf16_f32) (truncf .bf16 x1 bitsLt_bf16_f32) j

/-- The printed index maps over the grid: the row blocks of the left factor and of the result move together, block
    `t` at point `t`; the weight matrix is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the dense product of the arrays as the region finds them. -/
theorem flushed_eq (c : Dev nD) (t : Fin cfg1.N) :
    (dat1 V c).flushed 2 t = ((cfg1.win 2).blk t).view.read (Elt Ideal) (Cert.Gcn.dense (F := Ideal) (xarr V c) (warr V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  show k1_pay1 (xblk V c t) (wblk V c t) j
      = Cert.Gcn.dense (F := Ideal) (xarr V c) (warr V c) (((cfg1.win 2).blk t).view.emb j)
  refine (pay_apply (xblk V c t) (wblk V c t) j).trans ?_
  unfold Cert.Gcn.dense
  refine Eq.symm ((RA.dot_apply (xarr V c) (warr V c) (((cfg1.win 2).blk t).view.emb j)).trans ?_)
  refine Finset.sum_congr rfl fun k _ => ?_
  show xarr V c (RA.row (((cfg1.win 2).blk t).view.emb j) k) * warr V c (RA.col (((cfg1.win 2).blk t).view.emb j) k)
      = xarr V c (((cfg1.win 0).blk t).view.emb (KA.row j k)) * warr V c (((cfg1.win 1).blk t).view.emb (KA.col j k))
  have h0 : ((cfg1.win 0).blk t).view.emb (KA.row j k) = RA.row (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (KA.col j k) = RA.col (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- The ten row blocks tile the array (row `r` is in block `r / 5000`), so it ends holding the dense product. -/
theorem final (c : Dev nD) :
    (dat1 V c).arrAt 2 cfg1.N = Cert.Gcn.dense (F := Ideal) (xarr V c) (warr V c) :=
  (dat1 V c).arrAt_eq_of_cover 2 _ (fun t _ => flushed_eq V c t) fun i => by
    have hi0 : (i 0).val < 50000 := (i 0).isLt
    have hi1 : (i 1).val < 128 := (i 1).isLt
    have hN : cfg1.N = 10 := N_1
    refine ⟨⟨(i 0).val / 5000, by omega⟩, flush1_2 _, ?_⟩
    rw [mem_blk]
    obtain ⟨e0, e1, e2, e3, e4, e5⟩ := idx_facts ⟨(i 0).val / 5000, by omega⟩
    intro a
    match a with
    | ⟨0, _⟩ =>
      show win1_2.index ⟨(i 0).val / 5000, _⟩ (0 : Fin 2) * 5000 ≤ (i 0).val ∧ (i 0).val < win1_2.index ⟨(i 0).val / 5000, _⟩ (0 : Fin 2) * 5000 + 5000
      rw [e4]; show (i 0).val / 5000 * 5000 ≤ (i 0).val ∧ (i 0).val < (i 0).val / 5000 * 5000 + 5000; omega
    | ⟨1, _⟩ =>
      show win1_2.index ⟨(i 0).val / 5000, _⟩ (1 : Fin 2) * 128 ≤ (i 1).val ∧ (i 1).val < win1_2.index ⟨(i 0).val / 5000, _⟩ (1 : Fin 2) * 128 + 128
      rw [e5]; omega

end Cert.Gcn.Region1

end
-- ==== Proof.DotKB.lean ====
/-
  The matrix unit's product of a 5000-row block with a 128 by 1 column, accumulated into zero, read at an element at `Ideal`: the plain sum over the 128 contracted positions of a row of the left factor
  times a column of the right one (the one contracted axis re-indexed by its coordinate).
-/
import proofs.«139643_j72619307041204_1_alg».proof.KernelIdeal
import proofs.«139643_j72619307041204_1_alg».proof.Proof.Gen.KernelIdeal
import Idealize.ShloMosaic.Lib.ValueIdx
import Idealize.ShloMosaic.PureOps.Ideal.Laws

noncomputable section

open scoped BigOperators

namespace Cert.Gcn.KB

open Idealize.ShloMosaic Cert.KernelIdeal Cert.KernelIdeal.Gen

theorem lhs_0 (j : S5000x1.Idx) (q : dot_S5000x128_S128x1_S5000x1_1_0_0_1_n_n.contr.Idx) : (dot_S5000x128_S128x1_S5000x1_1_0_0_1_n_n.lhsIdx j q 0).val = (j 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_1 (j : S5000x1.Idx) (q : dot_S5000x128_S128x1_S5000x1_1_0_0_1_n_n.contr.Idx) : (dot_S5000x128_S128x1_S5000x1_1_0_0_1_n_n.lhsIdx j q 1).val = (q ⟨0, by decide⟩).val :=
  dot_S5000x128_S128x1_S5000x1_1_0_0_1_n_n.lhsIdx_val_of_single rfl j q
theorem rhs_0 (j : S5000x1.Idx) (q : dot_S5000x128_S128x1_S5000x1_1_0_0_1_n_n.contr.Idx) : (dot_S5000x128_S128x1_S5000x1_1_0_0_1_n_n.rhsIdx j q 0).val = (q ⟨0, by decide⟩).val :=
  dot_S5000x128_S128x1_S5000x1_1_0_0_1_n_n.rhsIdx_val_of_single rfl j q
theorem rhs_1 (j : S5000x1.Idx) (q : dot_S5000x128_S128x1_S5000x1_1_0_0_1_n_n.contr.Idx) : (dot_S5000x128_S128x1_S5000x1_1_0_0_1_n_n.rhsIdx j q 1).val = (j 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl
/-- Row `j 0` of the left factor at position `k`. -/
abbrev row (j : S5000x1.Idx) (k : Fin 128) : S5000x128.Idx := fun a => match a with
  | ⟨0, _⟩ => ⟨(j 0).val, (j 0).isLt⟩
  | ⟨1, _⟩ => ⟨k.val, k.isLt⟩
/-- Column `j 1` of the right factor at position `k`. -/
abbrev col (j : S5000x1.Idx) (k : Fin 128) : S128x1.Idx := fun a => match a with
  | ⟨0, _⟩ => ⟨k.val, k.isLt⟩
  | ⟨1, _⟩ => ⟨(j 1).val, (j 1).isLt⟩
/-- An element of the product is the sum over the 128 contracted positions of row times column. -/
theorem dot_apply (x : FVec Ideal S5000x128 .bf16) (w : FVec Ideal S128x1 .bf16) (j : S5000x1.Idx) :
    matmul dot_S5000x128_S128x1_S5000x1_1_0_0_1_n_n none x w (constant S5000x1 .f32 0x00000000#32) j = ∑ k : Fin 128, x (row j k) * w (col j k) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx j ((ValueIdx.contrEquiv1 dot_S5000x128_S128x1_S5000x1_1_0_0_1_n_n 128 rfl rfl).symm k) = row j k := funext fun a => Fin.ext (by
    match a with
    | ⟨0, _⟩ => exact lhs_0 _ _
    | ⟨1, _⟩ => exact (lhs_1 _ _).trans hk)
  have er : dot_S5000x128_S128x1_S5000x1_1_0_0_1_n_n.rhsIdx j ((ValueIdx.contrEquiv1 dot_S5000x128_S128x1_S5000x1_1_0_0_1_n_n 128 rfl rfl).symm k) = col j k := funext fun a => Fin.ext (by
    match a with
    | ⟨0, _⟩ => exact (rhs_0 _ _).trans hk
    | ⟨1, _⟩ => exact rhs_1 _ _)
  rw [el, er]

end Cert.Gcn.KB

end
-- ==== Proof.DotRB.lean ====
/-
  The host's dense product of the 50000 node rows with a 128 by 1 column, read at an element at `Ideal`: the plain sum over the 128 contracted positions of a row of the left factor
  times a column of the right one (the one contracted axis re-indexed by its coordinate).
-/
import proofs.«139643_j72619307041204_1_alg».proof.ReferenceIdeal
import proofs.«139643_j72619307041204_1_alg».proof.Proof.Gen.ReferenceIdeal
import Idealize.ShloMosaic.Lib.ValueIdx
import Idealize.ShloMosaic.PureOps.Ideal.Laws

noncomputable section

open scoped BigOperators

namespace Cert.Gcn.RB

open Idealize.ShloMosaic Cert.ReferenceIdeal Cert.ReferenceIdeal.Gen

theorem lhs_0 (j : S50000x1.Idx) (q : dot_S50000x128_S128x1_S50000x1_1_0_0_1_n_n.contr.Idx) : (dot_S50000x128_S128x1_S50000x1_1_0_0_1_n_n.lhsIdx j q 0).val = (j 0).val := by
  unfold DotDims.lhsIdx
  rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
  rfl
theorem lhs_1 (j : S50000x1.Idx) (q : dot_S50000x128_S128x1_S50000x1_1_0_0_1_n_n.contr.Idx) : (dot_S50000x128_S128x1_S50000x1_1_0_0_1_n_n.lhsIdx j q 1).val = (q ⟨0, by decide⟩).val :=
  dot_S50000x128_S128x1_S50000x1_1_0_0_1_n_n.lhsIdx_val_of_single rfl j q
theorem rhs_0 (j : S50000x1.Idx) (q : dot_S50000x128_S128x1_S50000x1_1_0_0_1_n_n.contr.Idx) : (dot_S50000x128_S128x1_S50000x1_1_0_0_1_n_n.rhsIdx j q 0).val = (q ⟨0, by decide⟩).val :=
  dot_S50000x128_S128x1_S50000x1_1_0_0_1_n_n.rhsIdx_val_of_single rfl j q
theorem rhs_1 (j : S50000x1.Idx) (q : dot_S50000x128_S128x1_S50000x1_1_0_0_1_n_n.contr.Idx) : (dot_S50000x128_S128x1_S50000x1_1_0_0_1_n_n.rhsIdx j q 1).val = (j 1).val := by
  unfold DotDims.rhsIdx
  rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
  rfl
/-- Row `j 0` of the left factor at position `k`. -/
abbrev row (j : S50000x1.Idx) (k : Fin 128) : S50000x128.Idx := fun a => match a with
  | ⟨0, _⟩ => ⟨(j 0).val, (j 0).isLt⟩
  | ⟨1, _⟩ => ⟨k.val, k.isLt⟩
/-- Column `j 1` of the right factor at position `k`. -/
abbrev col (j : S50000x1.Idx) (k : Fin 128) : S128x1.Idx := fun a => match a with
  | ⟨0, _⟩ => ⟨k.val, k.isLt⟩
  | ⟨1, _⟩ => ⟨(j 1).val, (j 1).isLt⟩
/-- An element of the product is the sum over the 128 contracted positions of row times column. -/
theorem dot_apply (x : FVec Ideal S50000x128 .f32) (w : FVec Ideal S128x1 .f32) (j : S50000x1.Idx) :
    Host.dotGeneral dot_S50000x128_S128x1_S50000x1_1_0_0_1_n_n none x w j = ∑ k : Fin 128, x (row j k) * w (col j k) := by
  simp only [Host.dotGeneral]
  rw [Ideal.dotGeneral_apply, ← Equiv.sum_comp (ValueIdx.contrEquiv1 dot_S50000x128_S128x1_S50000x1_1_0_0_1_n_n 128 rfl rfl).symm]
  refine Finset.sum_congr rfl fun k _ => ?_
  have hk := ValueIdx.contrEquiv1_symm_val dot_S50000x128_S128x1_S50000x1_1_0_0_1_n_n 128 rfl rfl k
  have el : dot_S50000x128_S128x1_S50000x1_1_0_0_1_n_n.lhsIdx j ((ValueIdx.contrEquiv1 dot_S50000x128_S128x1_S50000x1_1_0_0_1_n_n 128 rfl rfl).symm k) = row j k := funext fun a => Fin.ext (by
    match a with
    | ⟨0, _⟩ => exact lhs_0 _ _
    | ⟨1, _⟩ => exact (lhs_1 _ _).trans hk)
  have er : dot_S50000x128_S128x1_S50000x1_1_0_0_1_n_n.rhsIdx j ((ValueIdx.contrEquiv1 dot_S50000x128_S128x1_S50000x1_1_0_0_1_n_n 128 rfl rfl).symm k) = col j k := funext fun a => Fin.ext (by
    match a with
    | ⟨0, _⟩ => exact (rhs_0 _ _).trans hk
    | ⟨1, _⟩ => exact rhs_1 _ _)
  rw [el, er]

end Cert.Gcn.RB

end
-- ==== Proof.HeadHost.lean ====
/-
  The head read at an element, at `Ideal`: ten times the logistic of the node's row times the column `wf` plus the one
  bias. The host spells the logistic `1 / (1 + exp (-s))`, which is the extended reals' logistic by definition once
  the pattern `0x3F800000` is read as the number one.
-/
import proofs.«139643_j72619307041204_1_alg».proof.Proof.Layer
import proofs.«139643_j72619307041204_1_alg».proof.Proof.DotRB
import Idealize.ShloMosaic.Lib.Pipeline.Value
import Idealize.ShloMosaic.Lib.ValueIdx
import Idealize.ShloMosaic.PureOps.IdealRules

noncomputable section

open scoped BigOperators

namespace Cert.Gcn

open Idealize.ShloMosaic Idealize.ShloMosaic.TcCoe Cert.ReferenceIdeal Cert.ReferenceIdeal.Gen

/-- The f32 pattern of `1.0` is the number one. -/
theorem one_f32 : Ideal.ofBits .f32 0x3F800000#32 = 1 := IdealRules.sign_bit.ideal_onePat .f32

/-- The one index of the bias vector. -/
abbrev bias0 : S1.Idx := ValueIdx.ix1 (0 : Fin 1)

/-- The head's value at a node from the node's score: ten times its logistic. -/
def headAt (s : EReal) : EReal := Ideal.logistic s * Ideal.ofBits .f32 0x41200000#32

/-- The host's head at a node. -/
theorem head_apply (h : FVec Ideal S50000x128 .f32) (wf : FVec Ideal S128x1 .f32) (bf : FVec Ideal S1 .f32) (i : S50000x1.Idx) :
    tenLogistic (F := Ideal) (score h wf bf) i = headAt ((∑ k : Fin 128, h (RB.row i k) * wf (RB.col i k)) + bf bias0) := by
  unfold tenLogistic score headAt
  have hd := RB.dot_apply h wf i
  have hb : broadcastInDim S50000x1 ![0, 1] bcast_S1x1_S50000x1_0_1 (broadcastInDim S1x1 ![1] bcast_S1_S1x1_1 bf) i = bf bias0 :=
    (broadcastInDim_apply _ _ _ i (ValueIdx.ix2 (0 : Fin 1) (0 : Fin 1)) (fun a => by
        match a with
        | ⟨0, _⟩ => rfl
        | ⟨1, _⟩ => rfl)).trans
      (broadcastInDim_apply _ _ bf (ValueIdx.ix2 (0 : Fin 1) (0 : Fin 1)) bias0 (fun a => by
        match a with
        | ⟨0, _⟩ => rfl))
  show FloatOps.mulf (FloatOps.hostDivf (FloatOps.ofBits .f32 0x3F800000#32)
      (FloatOps.addf (FloatOps.ofBits .f32 0x3F800000#32) (FloatOps.hostUnary .exp (FloatOps.hostNegf
        (FloatOps.addf (Host.dotGeneral dot_S50000x128_S128x1_S50000x1_1_0_0_1_n_n none h wf i)
          (broadcastInDim S50000x1 ![0, 1] bcast_S1x1_S50000x1_0_1 (broadcastInDim S1x1 ![1] bcast_S1_S1x1_1 bf) i))))))
      (FloatOps.ofBits .f32 0x41200000#32) = _
  rw [hd, hb]
  show Ideal.div (Ideal.ofBits .f32 0x3F800000#32) (Ideal.ofBits .f32 0x3F800000#32 + Ideal.exp (-_)) * _ = _
  rw [one_f32]
  rfl

end Cert.Gcn

end
-- ==== Proof.Region2.lean ====
/-
  The head on the matrix unit. Grid point `t` multiplies rows `5000 t … 5000 t + 4999` of the second layer's output by
  the column `wf`, adds the one bias, takes the logistic and scales by ten, and writes the same rows of the result; the
  ten blocks tile the 50000 rows, so the result array ends holding, at every node, ten times the logistic of the node's
  score.
-/
import proofs.«139643_j72619307041204_1_alg».proof.Proof.Gen.KernelIdeal.Frame
import proofs.«139643_j72619307041204_1_alg».proof.Proof.DotKB
import proofs.«139643_j72619307041204_1_alg».proof.Proof.DotRB
import proofs.«139643_j72619307041204_1_alg».proof.Proof.HeadHost
import Idealize.ShloMosaic.Lib.Pipeline.Value

set_option maxRecDepth 16384

noncomputable section

open scoped BigOperators

namespace Cert.Gcn.Region2

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The second layer's output, the head's column and its bias as the region finds them, at their literal types. -/
abbrev harr (c : Dev nD) : FVec Ideal S50000x128 .f32 := V c main_v97
abbrev warr (c : Dev nD) : FVec Ideal S128x1 .f32 := V c main_arg7
abbrev barr (c : Dev nD) : FVec Ideal S1x1 .f32 := V c main_v98
/-- A point's blocks of them, at their literal types. -/
abbrev hblk (c : Dev nD) (t : Fin cfg2.N) : Vec Ideal S5000x128 .f32 := iblk2 V c 0 t
abbrev wblk (c : Dev nD) (t : Fin cfg2.N) : Vec Ideal S128x1 .f32 := iblk2 V c 1 t
abbrev bblk (c : Dev nD) (t : Fin cfg2.N) : Vec Ideal S1x1 .f32 := iblk2 V c 2 t

theorem hz : (![0, 0] : Fin 2 → Nat) = fun _ => 0 := funext fun a => by fin_cases a <;> rfl

/-- The one index of the one by one bias array. -/
abbrev one11 : S1x1.Idx := ValueIdx.ix2 (0 : Fin 1) (0 : Fin 1)

/-- The body's one store at an element: ten times the logistic of row times column plus the bias. -/
theorem pay_apply (x0 : Vec Ideal S5000x128 .f32) (x1 : Vec Ideal S128x1 .f32) (x2 : Vec Ideal S1x1 .f32) (j : S5000x1.Idx) :
    k2_pay1 x0 x1 x2 j = Cert.Gcn.headAt ((∑ k : Fin 128, x0 (KB.row j k) * x1 (KB.col j k)) + x2 one11) := by
  unfold k2_pay1 Cert.Gcn.headAt
  simp only [shapeCast_self]
  have hd := KB.dot_apply (truncf .bf16 x0 bitsLt_bf16_f32) (truncf .bf16 x1 bitsLt_bf16_f32) j
  have hb : broadcastTo S5000x1 (x2 : FVec Ideal S1x1 .f32) broadcasts_S1x1_S5000x1 j = x2 one11 :=
    broadcastTo_apply (x2 : FVec Ideal S1x1 .f32) _ j one11 (fun a => by
      match a with
      | ⟨0, _⟩ => rfl
      | ⟨1, _⟩ => rfl)
  show FloatOps.mulf (F := Ideal) (FloatOps.logistic (FloatOps.addf
      (matmul dot_S5000x128_S128x1_S5000x1_1_0_0_1_n_n none (truncf .bf16 x0 bitsLt_bf16_f32) (truncf .bf16 x1 bitsLt_bf16_f32) (constant S5000x1 .f32 0x00000000#32) j)
      (broadcastTo S5000x1 (x2 : FVec Ideal S1x1 .f32) broadcasts_S1x1_S5000x1 j))) (Scalar.ofBits .f32 0x41200000#32) = _
  rw [hd, hb]
  rfl

/-- The head at every node, from the arrays as the region finds them. -/
def G (c : Dev nD) : FVec Ideal S50000x1 .f32 := fun i =>
  Cert.Gcn.headAt ((∑ k : Fin 128, harr V c (RB.row i k) * warr V c (RB.col i k)) + barr V c one11)

/-- The printed index maps over the grid: the row blocks of the left factor and of the result move together, block
    `t` at point `t`; the column and the bias are one block each. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the head at every node. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x1) hz, View.ld_unit_zero (S := S1x1) hz]
  obtain ⟨e0, e1, e2, e3, e4, e5, e6, e7⟩ := idx_facts t
  funext j
  show k2_pay1 (hblk V c t) (wblk V c t) (bblk V c t) j = G V c (((cfg2.win 3).blk t).view.emb j)
  refine (pay_apply (hblk V c t) (wblk V c t) (bblk V c t) j).trans ?_
  unfold G
  refine congrArg Cert.Gcn.headAt ?_
  have h2 : ((cfg2.win 2).blk t).view.emb one11 = one11 := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  have hbias : bblk V c t one11 = barr V c one11 := by
    show barr V c (((cfg2.win 2).blk t).view.emb one11) = barr V c one11
    rw [h2]
  rw [hbias]
  refine congrArg (· + barr V c one11) ?_
  refine Finset.sum_congr rfl fun k _ => ?_
  show harr V c (((cfg2.win 0).blk t).view.emb (KB.row j k)) * warr V c (((cfg2.win 1).blk t).view.emb (KB.col j k))
      = harr V c (RB.row (((cfg2.win 3).blk t).view.emb j) k) * warr V c (RB.col (((cfg2.win 3).blk t).view.emb j) k)
  have h0 : ((cfg2.win 0).blk t).view.emb (KB.row j k) = RB.row (((cfg2.win 3).blk t).view.emb j) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ((cfg2.win 1).blk t).view.emb (KB.col j k) = RB.col (((cfg2.win 3).blk t).view.emb j) k := by
    funext a; apply Fin.ext
    match a with
    | ⟨0, _⟩ => show win2_1.index t (0 : Fin 2) * 128 + 1 * k.val = k.val; omega
    | ⟨1, _⟩ => show win2_1.index t (1 : Fin 2) * 1 + 1 * (j 1).val = win2_3.index t (1 : Fin 2) * 1 + 1 * (j 1).val; omega
  rw [h0, h1]

/-- An index of the result array is in point `t`'s block iff each coordinate is in the block's range on its axis. -/
theorem mem_blk (t : Fin cfg2.N) (i : S50000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v99).slice (win2_3.rect t)).set ↔ _
  rw [View.set_slice_whole, Rect.mem_set_unit]
  exact Iff.rfl

/-- The ten row blocks tile the array (row `r` is in block `r / 5000`), so it ends holding the head at every node. -/
theorem final (c : Dev nD) : (dat2 V c).arrAt 3 cfg2.N = G V c :=
  (dat2 V c).arrAt_eq_of_cover 3 _ (fun t _ => flushed_eq V c t) fun i => by
    have hi0 : (i 0).val < 50000 := (i 0).isLt
    have hi1 : (i 1).val < 1 := (i 1).isLt
    have hN : cfg2.N = 10 := N_2
    refine ⟨⟨(i 0).val / 5000, by omega⟩, flush2_3 _, ?_⟩
    rw [mem_blk]
    obtain ⟨e0, e1, e2, e3, e4, e5, e6, e7⟩ := idx_facts ⟨(i 0).val / 5000, by omega⟩
    intro a
    match a with
    | ⟨0, _⟩ =>
      show win2_3.index ⟨(i 0).val / 5000, _⟩ (0 : Fin 2) * 5000 ≤ (i 0).val ∧ (i 0).val < win2_3.index ⟨(i 0).val / 5000, _⟩ (0 : Fin 2) * 5000 + 5000
      rw [e6]; show (i 0).val / 5000 * 5000 ≤ (i 0).val ∧ (i 0).val < (i 0).val / 5000 * 5000 + 5000; omega
    | ⟨1, _⟩ =>
      show win2_3.index ⟨(i 0).val / 5000, _⟩ (1 : Fin 2) * 1 ≤ (i 1).val ∧ (i 1).val < win2_3.index ⟨(i 0).val / 5000, _⟩ (1 : Fin 2) * 1 + 1
      rw [e7]; omega

end Cert.Gcn.Region2

end
-- ==== Proof.HostChain.lean ====
/-
  The host operations between the kernel's regions, read as functions: each of the two stretches after a dense product
  is one graph-convolution layer (`Cert.Gcn.layer`) of that product, of the two rows of the edge list, of the edge
  weights and of the bias; the first four operations split the edge list into its rows; the last reshapes the head's bias.
-/
import proofs.«139643_j72619307041204_1_alg».proof.Proof.Gen.KernelIdeal.Launch
import proofs.«139643_j72619307041204_1_alg».proof.Proof.Layer
import Idealize.ShloMosaic.Lib.StableHlo.Run

set_option maxRecDepth 16384

noncomputable section

namespace Cert.Gcn.HostChain

open Idealize.ShloMosaic Idealize.ShloMosaic.TcCoe Idealize.SL.Sem Idealize.ShloMosaic.StableHlo
open Cert.KernelIdeal Cert.KernelIdeal.Gen

variable {F : FTy → Type} [FloatOps F]

/-- The edge list's first row, flattened. -/
theorem row0 (W : Valuation τ sig (Elt F)) :
    after hostOps0 W (Proc.devRef .tc main_v1) = Cert.Gcn.edgeRow0 (W (Proc.devRef .tc main_arg1)) := by
  simp only [hostOps0]
  after_results
  rfl

/-- The edge list's second row, flattened. -/
theorem row1 (W : Valuation τ sig (Elt F)) :
    after hostOps0 W (Proc.devRef .tc main_v3) = Cert.Gcn.edgeRow1 (W (Proc.devRef .tc main_arg1)) := by
  simp only [hostOps0]
  after_results
  rfl

set_option maxHeartbeats 4000000 in
/-- The stretch after the first dense product is the layer of it. -/
theorem layer1 (W : Valuation τ sig (Elt F)) :
    after hostOps1_2 (after hostOps1_1 (after hostOps1 W)) (Proc.devRef .tc main_v50)
      = Cert.Gcn.layer (F := F) (W (Proc.devRef .tc main_v4)) (W (Proc.devRef .tc main_v1)) (W (Proc.devRef .tc main_v3))
          (W (Proc.devRef .tc main_arg2)) (W (Proc.devRef .tc main_arg4)) := by
  simp only [hostOps1, hostOps1_1, hostOps1_2]
  after_results_simp
  rfl

set_option maxHeartbeats 4000000 in
/-- The stretch after the second dense product is the layer of it. -/
theorem layer2 (W : Valuation τ sig (Elt F)) :
    after hostOps2_2 (after hostOps2_1 (after hostOps2 W)) (Proc.devRef .tc main_v97)
      = Cert.Gcn.layer (F := F) (W (Proc.devRef .tc main_v51)) (W (Proc.devRef .tc main_v1)) (W (Proc.devRef .tc main_v3))
          (W (Proc.devRef .tc main_arg2)) (W (Proc.devRef .tc main_arg6)) := by
  simp only [hostOps2, hostOps2_1, hostOps2_2]
  after_results_simp
  rfl

set_option maxHeartbeats 4000000 in
/-- The head's bias as a one by one array. -/
theorem bias11 (W : Valuation τ sig (Elt F)) :
    after hostOps2_2 (after hostOps2_1 (after hostOps2 W)) (Proc.devRef .tc main_v98)
      = shapeCast S1x1 (W (Proc.devRef .tc main_arg8)) shapeCasts_S1_S1x1 := by
  simp only [hostOps2, hostOps2_1, hostOps2_2]
  after_results_simp
  rfl

end Cert.Gcn.HostChain

end
-- ==== Proof.KernelValue.lean ====
/-
  The kernel program's result as a function of its arguments, at `Ideal`. Reading the buffer contents at the program's
  segment boundaries from the launch on: the first four host operations split the edge list into its two rows; the first
  region leaves the dense product of the node features with the first weight matrix; the host stretch after it is the
  first layer of that product; the second region leaves the dense product of the layer's output with the second weight
  matrix; the next stretch is the second layer and the reshaped bias; the last region leaves the head. Composed, this is
  `Cert.Gcn.network` of the nine arguments.
-/
import proofs.«139643_j72619307041204_1_alg».proof.Proof.Gen.KernelIdeal.Frame
import proofs.«139643_j72619307041204_1_alg».proof.Proof.Region0
import proofs.«139643_j72619307041204_1_alg».proof.Proof.Region1
import proofs.«139643_j72619307041204_1_alg».proof.Proof.Region2
import proofs.«139643_j72619307041204_1_alg».proof.Proof.HostChain
import proofs.«139643_j72619307041204_1_alg».proof.Proof.HeadHost
import proofs.«139643_j72619307041204_1_alg».proof.Proof.Layer

set_option maxRecDepth 16384

noncomputable section

open scoped BigOperators

namespace Cert.Gcn.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- No operation of the named list writes the buffer the goal names (one inequality of references per operation). -/
macro "not_written " ops:ident : tactic => `(tactic| exact List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- A buffer the first layer's stretch does not write keeps its contents through it. -/
theorem keep1 (W : Valuation τ sig (Elt Ideal)) (b : DevRef τ sig)
    (h1 : ∀ op ∈ (hostOps1 : List (HloOp τ sig (Elt Ideal))), b ∉ op.writes)
    (h2 : ∀ op ∈ (hostOps1_1 : List (HloOp τ sig (Elt Ideal))), b ∉ op.writes)
    (h3 : ∀ op ∈ (hostOps1_2 : List (HloOp τ sig (Elt Ideal))), b ∉ op.writes) :
    after hostOps1_2 (after hostOps1_1 (after hostOps1 W)) b = W b := by
  rw [after_of_forall_not_mem _ _ h3, after_of_forall_not_mem _ _ h2, after_of_forall_not_mem _ _ h1]

/-- A buffer the second layer's stretch does not write keeps its contents through it. -/
theorem keep2 (W : Valuation τ sig (Elt Ideal)) (b : DevRef τ sig)
    (h1 : ∀ op ∈ (hostOps2 : List (HloOp τ sig (Elt Ideal))), b ∉ op.writes)
    (h2 : ∀ op ∈ (hostOps2_1 : List (HloOp τ sig (Elt Ideal))), b ∉ op.writes)
    (h3 : ∀ op ∈ (hostOps2_2 : List (HloOp τ sig (Elt Ideal))), b ∉ op.writes) :
    after hostOps2_2 (after hostOps2_1 (after hostOps2 W)) b = W b := by
  rw [after_of_forall_not_mem _ _ h3, after_of_forall_not_mem _ _ h2, after_of_forall_not_mem _ _ h1]

/-! ## At the first region's entry: the arguments as launched, the edge list split into its rows -/

theorem at1_arg0 (c : Dev nD) : W1 m ρ c (Proc.devRef .tc main_arg0) = m ((c : Thread nD τ).loc main_arg0) :=
  after_of_forall_not_mem (b := Proc.devRef .tc main_arg0) _ _ (by not_written hostOps0)
theorem at1_arg2 (c : Dev nD) : W1 m ρ c (Proc.devRef .tc main_arg2) = m ((c : Thread nD τ).loc main_arg2) :=
  after_of_forall_not_mem (b := Proc.devRef .tc main_arg2) _ _ (by not_written hostOps0)
theorem at1_arg3 (c : Dev nD) : W1 m ρ c (Proc.devRef .tc main_arg3) = m ((c : Thread nD τ).loc main_arg3) :=
  after_of_forall_not_mem (b := Proc.devRef .tc main_arg3) _ _ (by not_written hostOps0)
theorem at1_arg4 (c : Dev nD) : W1 m ρ c (Proc.devRef .tc main_arg4) = m ((c : Thread nD τ).loc main_arg4) :=
  after_of_forall_not_mem (b := Proc.devRef .tc main_arg4) _ _ (by not_written hostOps0)
theorem at1_arg5 (c : Dev nD) : W1 m ρ c (Proc.devRef .tc main_arg5) = m ((c : Thread nD τ).loc main_arg5) :=
  after_of_forall_not_mem (b := Proc.devRef .tc main_arg5) _ _ (by not_written hostOps0)
theorem at1_arg6 (c : Dev nD) : W1 m ρ c (Proc.devRef .tc main_arg6) = m ((c : Thread nD τ).loc main_arg6) :=
  after_of_forall_not_mem (b := Proc.devRef .tc main_arg6) _ _ (by not_written hostOps0)
theorem at1_arg7 (c : Dev nD) : W1 m ρ c (Proc.devRef .tc main_arg7) = m ((c : Thread nD τ).loc main_arg7) :=
  after_of_forall_not_mem (b := Proc.devRef .tc main_arg7) _ _ (by not_written hostOps0)
theorem at1_arg8 (c : Dev nD) : W1 m ρ c (Proc.devRef .tc main_arg8) = m ((c : Thread nD τ).loc main_arg8) :=
  after_of_forall_not_mem (b := Proc.devRef .tc main_arg8) _ _ (by not_written hostOps0)
theorem at1_src (c : Dev nD) : W1 m ρ c (Proc.devRef .tc main_v1) = Cert.Gcn.edgeRow0 (m ((c : Thread nD τ).loc main_arg1)) :=
  HostChain.row0 (W0 m ρ c)
theorem at1_dst (c : Dev nD) : W1 m ρ c (Proc.devRef .tc main_v3) = Cert.Gcn.edgeRow1 (m ((c : Thread nD τ).loc main_arg1)) :=
  HostChain.row1 (W0 m ρ c)

/-! ## After the first region -/

/-- The first region leaves the dense product of the node features with the first weight matrix. -/
theorem at2_xw (c : Dev nD) : W2 m ρ c (Proc.devRef .tc main_v4)
    = Cert.Gcn.dense (F := Ideal) (m ((c : Thread nD τ).loc main_arg0)) (m ((c : Thread nD τ).loc main_arg3)) := by
  refine (W2_arr m ρ c 2).trans ((Region0.final (V1 m ρ) c).trans ?_)
  show Cert.Gcn.dense (F := Ideal) (W1 m ρ c (Proc.devRef .tc main_arg0)) (W1 m ρ c (Proc.devRef .tc main_arg3)) = _
  rw [at1_arg0, at1_arg3]

theorem at2_src (c : Dev nD) : W2 m ρ c (Proc.devRef .tc main_v1) = Cert.Gcn.edgeRow0 (m ((c : Thread nD τ).loc main_arg1)) :=
  (W2_of_ne m ρ c main_v1 (by decide)).trans (at1_src m ρ c)
theorem at2_dst (c : Dev nD) : W2 m ρ c (Proc.devRef .tc main_v3) = Cert.Gcn.edgeRow1 (m ((c : Thread nD τ).loc main_arg1)) :=
  (W2_of_ne m ρ c main_v3 (by decide)).trans (at1_dst m ρ c)
theorem at2_arg2 (c : Dev nD) : W2 m ρ c (Proc.devRef .tc main_arg2) = m ((c : Thread nD τ).loc main_arg2) :=
  (W2_of_ne m ρ c main_arg2 (by decide)).trans (at1_arg2 m ρ c)
theorem at2_arg4 (c : Dev nD) : W2 m ρ c (Proc.devRef .tc main_arg4) = m ((c : Thread nD τ).loc main_arg4) :=
  (W2_of_ne m ρ c main_arg4 (by decide)).trans (at1_arg4 m ρ c)
theorem at2_arg5 (c : Dev nD) : W2 m ρ c (Proc.devRef .tc main_arg5) = m ((c : Thread nD τ).loc main_arg5) :=
  (W2_of_ne m ρ c main_arg5 (by decide)).trans (at1_arg5 m ρ c)
theorem at2_arg6 (c : Dev nD) : W2 m ρ c (Proc.devRef .tc main_arg6) = m ((c : Thread nD τ).loc main_arg6) :=
  (W2_of_ne m ρ c main_arg6 (by decide)).trans (at1_arg6 m ρ c)
theorem at2_arg7 (c : Dev nD) : W2 m ρ c (Proc.devRef .tc main_arg7) = m ((c : Thread nD τ).loc main_arg7) :=
  (W2_of_ne m ρ c main_arg7 (by decide)).trans (at1_arg7 m ρ c)
theorem at2_arg8 (c : Dev nD) : W2 m ρ c (Proc.devRef .tc main_arg8) = m ((c : Thread nD τ).loc main_arg8) :=
  (W2_of_ne m ρ c main_arg8 (by decide)).trans (at1_arg8 m ρ c)

/-! ## At the second region's entry -/

/-- The first layer's output. -/
abbrev hidden1 (c : Dev nD) : FVec Ideal Cert.ReferenceIdeal.S50000x128 .f32 :=
  Cert.Gcn.layer (F := Ideal) (Cert.Gcn.dense (F := Ideal) (m ((c : Thread nD τ).loc main_arg0)) (m ((c : Thread nD τ).loc main_arg3)))
    (Cert.Gcn.edgeRow0 (m ((c : Thread nD τ).loc main_arg1))) (Cert.Gcn.edgeRow1 (m ((c : Thread nD τ).loc main_arg1)))
    (m ((c : Thread nD τ).loc main_arg2)) (m ((c : Thread nD τ).loc main_arg4))

theorem at5_h (c : Dev nD) : W5 m ρ c (Proc.devRef .tc main_v50) = hidden1 m c := by
  refine (HostChain.layer1 (W2 m ρ c)).trans ?_
  rw [at2_xw, at2_src, at2_dst, at2_arg2, at2_arg4]

theorem at5_src (c : Dev nD) : W5 m ρ c (Proc.devRef .tc main_v1) = Cert.Gcn.edgeRow0 (m ((c : Thread nD τ).loc main_arg1)) :=
  (keep1 (W2 m ρ c) (Proc.devRef .tc main_v1) (by not_written hostOps1) (by not_written hostOps1_1) (by not_written hostOps1_2)).trans (at2_src m ρ c)
theorem at5_dst (c : Dev nD) : W5 m ρ c (Proc.devRef .tc main_v3) = Cert.Gcn.edgeRow1 (m ((c : Thread nD τ).loc main_arg1)) :=
  (keep1 (W2 m ρ c) (Proc.devRef .tc main_v3) (by not_written hostOps1) (by not_written hostOps1_1) (by not_written hostOps1_2)).trans (at2_dst m ρ c)
theorem at5_arg2 (c : Dev nD) : W5 m ρ c (Proc.devRef .tc main_arg2) = m ((c : Thread nD τ).loc main_arg2) :=
  (keep1 (W2 m ρ c) (Proc.devRef .tc main_arg2) (by not_written hostOps1) (by not_written hostOps1_1) (by not_written hostOps1_2)).trans (at2_arg2 m ρ c)
theorem at5_arg5 (c : Dev nD) : W5 m ρ c (Proc.devRef .tc main_arg5) = m ((c : Thread nD τ).loc main_arg5) :=
  (keep1 (W2 m ρ c) (Proc.devRef .tc main_arg5) (by not_written hostOps1) (by not_written hostOps1_1) (by not_written hostOps1_2)).trans (at2_arg5 m ρ c)
theorem at5_arg6 (c : Dev nD) : W5 m ρ c (Proc.devRef .tc main_arg6) = m ((c : Thread nD τ).loc main_arg6) :=
  (keep1 (W2 m ρ c) (Proc.devRef .tc main_arg6) (by not_written hostOps1) (by not_written hostOps1_1) (by not_written hostOps1_2)).trans (at2_arg6 m ρ c)
theorem at5_arg7 (c : Dev nD) : W5 m ρ c (Proc.devRef .tc main_arg7) = m ((c : Thread nD τ).loc main_arg7) :=
  (keep1 (W2 m ρ c) (Proc.devRef .tc main_arg7) (by not_written hostOps1) (by not_written hostOps1_1) (by not_written hostOps1_2)).trans (at2_arg7 m ρ c)
theorem at5_arg8 (c : Dev nD) : W5 m ρ c (Proc.devRef .tc main_arg8) = m ((c : Thread nD τ).loc main_arg8) :=
  (keep1 (W2 m ρ c) (Proc.devRef .tc main_arg8) (by not_written hostOps1) (by not_written hostOps1_1) (by not_written hostOps1_2)).trans (at2_arg8 m ρ c)

/-! ## After the second region -/

/-- The second region leaves the dense product of the first layer's output with the second weight matrix. -/
theorem at6_xw (c : Dev nD) : W6 m ρ c (Proc.devRef .tc main_v51)
    = Cert.Gcn.dense (F := Ideal) (hidden1 m c) (m ((c : Thread nD τ).loc main_arg5)) := by
  refine (W6_arr m ρ c 2).trans ((Region1.final (V5 m ρ) c).trans ?_)
  show Cert.Gcn.dense (F := Ideal) (W5 m ρ c (Proc.devRef .tc main_v50)) (W5 m ρ c (Proc.devRef .tc main_arg5)) = _
  rw [at5_h, at5_arg5]

theorem at6_src (c : Dev nD) : W6 m ρ c (Proc.devRef .tc main_v1) = Cert.Gcn.edgeRow0 (m ((c : Thread nD τ).loc main_arg1)) :=
  (W6_of_ne m ρ c main_v1 (by decide)).trans (at5_src m ρ c)
theorem at6_dst (c : Dev nD) : W6 m ρ c (Proc.devRef .tc main_v3) = Cert.Gcn.edgeRow1 (m ((c : Thread nD τ).loc main_arg1)) :=
  (W6_of_ne m ρ c main_v3 (by decide)).trans (at5_dst m ρ c)
theorem at6_arg2 (c : Dev nD) : W6 m ρ c (Proc.devRef .tc main_arg2) = m ((c : Thread nD τ).loc main_arg2) :=
  (W6_of_ne m ρ c main_arg2 (by decide)).trans (at5_arg2 m ρ c)
theorem at6_arg6 (c : Dev nD) : W6 m ρ c (Proc.devRef .tc main_arg6) = m ((c : Thread nD τ).loc main_arg6) :=
  (W6_of_ne m ρ c main_arg6 (by decide)).trans (at5_arg6 m ρ c)
theorem at6_arg7 (c : Dev nD) : W6 m ρ c (Proc.devRef .tc main_arg7) = m ((c : Thread nD τ).loc main_arg7) :=
  (W6_of_ne m ρ c main_arg7 (by decide)).trans (at5_arg7 m ρ c)
theorem at6_arg8 (c : Dev nD) : W6 m ρ c (Proc.devRef .tc main_arg8) = m ((c : Thread nD τ).loc main_arg8) :=
  (W6_of_ne m ρ c main_arg8 (by decide)).trans (at5_arg8 m ρ c)

/-! ## At the last region's entry -/

/-- The second layer's output. -/
abbrev hidden2 (c : Dev nD) : FVec Ideal Cert.ReferenceIdeal.S50000x128 .f32 :=
  Cert.Gcn.layer (F := Ideal) (Cert.Gcn.dense (F := Ideal) (hidden1 m c) (m ((c : Thread nD τ).loc main_arg5)))
    (Cert.Gcn.edgeRow0 (m ((c : Thread nD τ).loc main_arg1))) (Cert.Gcn.edgeRow1 (m ((c : Thread nD τ).loc main_arg1)))
    (m ((c : Thread nD τ).loc main_arg2)) (m ((c : Thread nD τ).loc main_arg6))

theorem at9_h (c : Dev nD) : Region2.harr (V9 m ρ) c = hidden2 m c := by
  refine (HostChain.layer2 (W6 m ρ c)).trans ?_
  rw [at6_xw, at6_src, at6_dst, at6_arg2, at6_arg6]

theorem at9_wf (c : Dev nD) : Region2.warr (V9 m ρ) c = m ((c : Thread nD τ).loc main_arg7) :=
  (keep2 (W6 m ρ c) (Proc.devRef .tc main_arg7) (by not_written hostOps2) (by not_written hostOps2_1) (by not_written hostOps2_2)).trans (at6_arg7 m ρ c)

theorem at9_bias (c : Dev nD) : Region2.barr (V9 m ρ) c = shapeCast S1x1 (m ((c : Thread nD τ).loc main_arg8)) shapeCasts_S1_S1x1 := by
  refine (HostChain.bias11 (W6 m ρ c)).trans ?_
  rw [at6_arg8]

/-! ## The result -/

/-- The kernel program's result buffer ends at the network's function of the nine arguments. -/
theorem result (c : Dev nD) : W10 m ρ c (Proc.devRef .tc main_v99)
    = Cert.Gcn.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W10_arr m ρ c 3).trans ((Region2.final (V9 m ρ) c).trans ?_)
  funext i
  unfold Cert.Gcn.network
  rw [Cert.Gcn.head_apply]
  unfold Region2.G
  rw [at9_h, at9_wf, at9_bias]
  refine congrArg Cert.Gcn.headAt (congrArg (_ + ·) ?_)
  exact shapeCast_apply _ shapeCasts_S1_S1x1 Region2.one11 Cert.Gcn.bias0 (by decide)

end Cert.Gcn.KernelValue

end
-- ==== Proof.RefTerm.lean ====
/-
  The reference's run ends with its result at the network's function of the arguments: the run's composed term is the
  two layers over the host's dense products and the head, operation for operation.
-/
import proofs.«139643_j72619307041204_1_alg».proof.Proof.Gen.ReferenceIdeal.Run
import proofs.«139643_j72619307041204_1_alg».proof.Proof.Layer

set_option maxRecDepth 16384

noncomputable section

namespace Cert.Gcn

open Idealize.ShloMosaic Idealize.ShloMosaic.TcCoe Idealize.SL.Sem Cert.ReferenceIdeal Cert.ReferenceIdeal.Gen

variable {F : FTy → Type} [FloatOps F]

set_option maxHeartbeats 4000000 in
/-- The run's term for the result is `network` of the nine arguments. -/
theorem ref_term (m : (ℓ : Loc nD τ sig) → Buf (Elt F) ℓ) (c : Dev nD) :
    Cert.ReferenceIdeal.Value.res_main_v109 m c
      = network (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v109 network tenLogistic score layer dense edgeNorm invSqrtDeg degree wrapCol edgeRow0 edgeRow1
  rfl

end Cert.Gcn

end
-- ==== Proof.lean ====
/-
  A two-layer graph convolution with a logistic head: `forward` computes its three dense products on the matrix unit, in
  blocks of 5000 node rows with bf16 operands and an f32 accumulator, and everything between them — degrees, their inverse
  square roots, the gather of neighbour rows, the segment sums — with the same host operations as `reference`.
  On the extended reals a change of float format is the identity and a matrix-unit product into a zero accumulator is the
  plain sum over the contracted axis, so each region leaves exactly the host's dense product (its row blocks tile the
  array), the shared host operations are carried as one function of that product, and the kernel's `tpu.logistic` is the
  host's `1 / (1 + exp (-s))`. Both programs end at `Cert.Gcn.network` of the nine arguments. No law of the extended
  reals beyond the definitions is used, so the finiteness of the inputs is never opened.
-/
import proofs.«139643_j72619307041204_1_alg».proof.Defs
import proofs.«139643_j72619307041204_1_alg».proof.Proof.Gen.Kernel
import proofs.«139643_j72619307041204_1_alg».proof.Proof.Gen.Kernel.Frame
import proofs.«139643_j72619307041204_1_alg».proof.Proof.Gen.KernelIdeal
import proofs.«139643_j72619307041204_1_alg».proof.Proof.Gen.KernelIdeal.Frame
import proofs.«139643_j72619307041204_1_alg».proof.Proof.Gen.ReferenceIdeal
import proofs.«139643_j72619307041204_1_alg».proof.Proof.Gen.ReferenceIdeal.Run
import proofs.«139643_j72619307041204_1_alg».proof.Proof.Gen.Pre_finite_inputs
import proofs.«139643_j72619307041204_1_alg».proof.Proof.Launch
import proofs.«139643_j72619307041204_1_alg».proof.Proof.KernelValue
import proofs.«139643_j72619307041204_1_alg».proof.Proof.RefTerm

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernel_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result at the network's function of the arguments. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Gcn.KernelValue.result m ρ c), (h c).2⟩)
      (Cert.KernelIdeal.Launch.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.Gcn.ref_term]
    obtain ⟨a0, a1, a2, a3, a4, a5, a6, a7, a8⟩ := hagree c
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
